-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4 : Shape := ⟨1, ![4]⟩
abbrev S4x128x512 : Shape := ⟨3, ![4, 128, 512]⟩
abbrev S1024x512 : Shape := ⟨2, ![1024, 512]⟩
abbrev S1024 : Shape := ⟨1, ![1024]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x128x512 : S_.BroadcastsInDim S4x128x512 (![] : Fin 0 → Fin S4x128x512.rank)
  reducesTo_S4x128x512_S_d0_1_2 : S4x128x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x256x512 .f32) (main_arg1 : IVec S4 32) (main_arg2 : FVec F S4x128x512 .f32) (main_arg3 : IVec S4 32) (main_arg4 : FVec F S1024x512 .f32) (main_arg5 : FVec F S1024 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x128x512 .f32 := Host.absf main_arg2
  let main_cst_0 : FVec F S_ .f32 := constant S_ .f32 0x7F800000#32
  let main_v5 : FVec F S4x128x512 .f32 := broadcastInDim S4x128x512 ![] bcast_S_S4x128x512 main_cst_0
  let main_v6 : IVec S4x128x512 1 := cmpf .olt main_v4 main_v5
  let main_c_1 : IVec S_ 1 := constantI S_ 1 1#1
  let main_v7 : IVec S_ 1 := (fun x v => Host.reduce IntOp.andi x v reducesTo_S4x128x512_S_d0_1_2 h_S_) main_v6 main_c_1
  let main_v8 : IVec S_ 1 := andi main_v3 main_v7
  let main_v9 : FVec F S1024x512 .f32 := Host.absf main_arg4
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x256x512 : Shape := ⟨3, ![4, 256, 512]⟩
abbrev S4 : Shape := ⟨1, ![4]⟩
abbrev S4x128x512 : Shape := ⟨3, ![4, 128, 512]⟩
abbrev S1024x512 : Shape := ⟨2, ![1024, 512]⟩
abbrev S1024 : Shape := ⟨1, ![1024]⟩
abbrev S512x1024 : Shape := ⟨2, ![512, 1024]⟩
abbrev S4x256x128x1024 : Shape := ⟨4, ![4, 256, 128, 1024]⟩
abbrev S1x16x512 : Shape := ⟨3, ![1, 16, 512]⟩
abbrev S1x128x512 : Shape := ⟨3, ![1, 128, 512]⟩
abbrev S1x16x128x1024 : Shape := ⟨4, ![1, 16, 128, 1024]⟩
abbrev S16x512 : Shape := ⟨2, ![16, 512]⟩
abbrev S128x512 : Shape := ⟨2, ![128, 512]⟩
abbrev S16x1x512 : Shape := ⟨3, ![16, 1, 512]⟩
abbrev S16x128x512 : Shape := ⟨3, ![16, 128, 512]⟩
abbrev S2048x512 : Shape := ⟨2, ![2048, 512]⟩
abbrev S2048x1024 : Shape := ⟨2, ![2048, 1024]⟩
abbrev S1x1024 : Shape := ⟨2, ![1, 1024]⟩
abbrev S16x128x1024 : Shape := ⟨3, ![16, 128, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4x256x512, .f32⟩
  | .hbm, ⟨1, _⟩ => ⟨S4, .i32⟩
  | .hbm, ⟨2, _⟩ => ⟨S4x128x512, .f32⟩
  | .hbm, ⟨3, _⟩ => ⟨S4, .i32⟩
  | .hbm, ⟨4, _⟩ => ⟨S1024x512, .f32⟩
  | .hbm, ⟨5, _⟩ => ⟨S1024, .f32⟩
  | .hbm, ⟨6, _⟩ => ⟨S512x1024, .f32⟩
  | .hbm, ⟨7, _⟩ => ⟨S512x1024, .bf16⟩
  | .hbm, ⟨8, _⟩ => ⟨S4x256x128x1024, .f32⟩
  | .local _ .vmem, ⟨0, _⟩ => ⟨S1x16x512, .f32⟩
  | .local _ .vmem, ⟨1, _⟩ => ⟨S1x16x512, .f32⟩
  | .local _ .vmem, ⟨2, _⟩ => ⟨S1x128x512, .f32⟩
  | .local _ .vmem, ⟨3, _⟩ => ⟨S1x128x512, .f32⟩
  | .local _ .vmem, ⟨4, _⟩ => ⟨S512x1024, .bf16⟩
  | .local _ .vmem, ⟨5, _⟩ => ⟨S1024, .f32⟩
  | .local _ .vmem, ⟨6, _⟩ => ⟨S1x16x128x1024, .f32⟩
  | .local _ .vmem, ⟨7, _⟩ => ⟨S1x16x128x1024, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S1024x512_S512x1024_1_0 : S1024x512.Transposes [1, 0] S512x1024
  bitsLt_bf16_f32 : FTy.bits .bf16 < FTy.bits .f32
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S16x512_S16x1x512 : S16x512.ShapeCasts S16x1x512
  shapeCasts_S128x512_S1x128x512 : S128x512.ShapeCasts S1x128x512
  broadcasts_S16x1x512_S16x128x512 : S16x1x512.Broadcasts S16x128x512
  broadcasts_S1x128x512_S16x128x512 : S1x128x512.Broadcasts S16x128x512
  shapeCasts_S16x128x512_S2048x512 : S16x128x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  shapeCasts_S2048x1024_S16x128x1024 : S2048x1024.ShapeCasts S16x128x1024
  inb_S1x16x128x1024_S1x16x128x1024_0_0_0_0 : ∀ a, (![0, 0, 0, 0] : Fin 4 → Nat) a + S1x16x128x1024.size a ≤ S1x16x128x1024.size a
  h_S1x16x128x1024 : 0 < S1x16x128x1024.numel
  shapeCasts_S1x16x128x1024_S16x128x1024 : S1x16x128x1024.ShapeCasts S16x128x1024
  shapeCasts_S16x128x1024_S1x16x128x1024 : S16x128x1024.ShapeCasts S1x16x128x1024
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512.size a ≤ S4x256x512.size a
  hwx0_0 : ∀ i : grid0.Coords, EltTy.bits .f32 = 32 ∨ (Rect.block (s := S4x256x512) S1x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S4x128x512.size a
  hwx0_1 : ∀ i : grid0.Coords, EltTy.bits .f32 = 32 ∨ (Rect.block (s := S4x128x512) S1x128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x128x1024.size a ≤ S4x256x128x1024.size a
  hwx0_4 : ∀ i : grid0.Coords, EltTy.bits .f32 = 32 ∨ (Rect.block (s := S4x256x128x1024) S1x16x128x1024.size (cc0_transform_4 i) (hinb0_4 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S1x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x16x128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x256x512 : Shape := ⟨3, ![4, 256, 512]⟩
abbrev S4 : Shape := ⟨1, ![4]⟩
abbrev S4x128x512 : Shape := ⟨3, ![4, 128, 512]⟩
abbrev S1024x512 : Shape := ⟨2, ![1024, 512]⟩
abbrev S1024 : Shape := ⟨1, ![1024]⟩
abbrev S4x256x1x512 : Shape := ⟨4, ![4, 256, 1, 512]⟩
abbrev S4x1x128x512 : Shape := ⟨4, ![4, 1, 128, 512]⟩
abbrev S4x256x128x512 : Shape := ⟨4, ![4, 256, 128, 512]⟩
abbrev S_ : Shape := ⟨0, ![]⟩
abbrev S4x256x128x1024 : Shape := ⟨4, ![4, 256, 128, 1024]⟩
abbrev S1x1x1x1024 : Shape := ⟨4, ![1, 1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4, .i32⟩
  | .hbm, ⟨2, _⟩ => ⟨S4x128x512, .f32⟩
  | .hbm, ⟨3, _⟩ => ⟨S4, .i32⟩
  | .hbm, ⟨4, _⟩ => ⟨S1024x512, .f32⟩
  | .hbm, ⟨5, _⟩ => ⟨S1024, .f32⟩
  | .hbm, ⟨6, _⟩ => ⟨S4x256x1x512, .f32⟩
  | .hbm, ⟨7, _⟩ => ⟨S4x1x128x512, .f32⟩
  | .hbm, ⟨8, _⟩ => ⟨S4x256x128x512, .f32⟩
  | .hbm, ⟨9, _⟩ => ⟨S4x256x128x512, .f32⟩
  | .hbm, ⟨10, _⟩ => ⟨S4x256x128x512, .f32⟩
  | .hbm, ⟨11, _⟩ => ⟨S_, .f32⟩
  | .hbm, ⟨12, _⟩ => ⟨S4x256x128x512, .f32⟩
  | .hbm, ⟨13, _⟩ => ⟨S4x256x128x512, .f32⟩
  | .hbm, ⟨14, _⟩ => ⟨S4x256x128x1024, .f32⟩
  | .hbm, ⟨15, _⟩ => ⟨S1x1x1x1024, .f32⟩
  | .hbm, ⟨16, _⟩ => ⟨S4x256x128x1024, .f32⟩
  | .hbm, ⟨17, _⟩ => ⟨S4x256x128x1024, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  bcast_S4x256x512_S4x256x1x512_0_1_3 : S4x256x512.BroadcastsInDim S4x256x1x512 (![0, 1, 3] : Fin 3 → Fin S4x256x1x512.rank)
  bcast_S4x128x512_S4x1x128x512_0_2_3 : S4x128x512.BroadcastsInDim S4x1x128x512 (![0, 2, 3] : Fin 3 → Fin S4x1x128x512.rank)
  bcast_S4x256x1x512_S4x256x128x512_0_1_2_3 : S4x256x1x512.BroadcastsInDim S4x256x128x512 (![0, 1, 2, 3] : Fin 4 → Fin S4x256x128x512.rank)
  bcast_S4x1x128x512_S4x256x128x512_0_1_2_3 : S4x1x128x512.BroadcastsInDim S4x256x128x512 (![0, 1, 2, 3] : Fin 4 → Fin S4x256x128x512.rank)
  bcast_S_S4x256x128x512 : S_.BroadcastsInDim S4x256x128x512 (![] : Fin 0 → Fin S4x256x128x512.rank)
  bcast_S1024_S1x1x1x1024_3 : S1024.BroadcastsInDim S1x1x1x1024 (![3] : Fin 1 → Fin S1x1x1x1024.rank)
  bcast_S1x1x1x1024_S4x256x128x1024_0_1_2_3 : S1x1x1x1024.BroadcastsInDim S4x256x128x1024 (![0, 1, 2, 3] : Fin 4 → Fin S4x256x128x1024.rank)
  dot_S4x256x128x512_S1024x512_S4x256x128x1024_3_1_012_0_n_n_wf : DotDims.WF S4x256x128x512 S1024x512 S4x256x128x1024 [3] [1] [0, 1, 2] [0] [] []

variable [Facts₀]

def dot_S4x256x128x512_S1024x512_S4x256x128x1024_3_1_012_0_n_n : DotDims S4x256x128x512 S1024x512 S4x256x128x1024 where
  lhsContracting := [3]
  rhsContracting := [1]
  lhsNonContracting := [0, 1, 2]
  rhsNonContracting := [0]
  lhsBatch := []
  rhsBatch := []
  wf := dot_S4x256x128x512_S1024x512_S4x256x128x1024_3_1_012_0_n_n_wf

class Facts : Prop extends Facts₀ where

variable [Facts]
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.Layout.lean ====
/-
  The re-layings the joiner's body performs on its blocks, each read at an index written by coordinates.
  A [16, 128, n] array and the [2048, n] matrix with the same row-major order correspond by
  (p, u, k) ↔ (p · 128 + u, k); a [16, n] matrix given a unit middle axis, and the two broadcasts that
  spread a [16, 1, 512] and a [1, 128, 512] array over [16, 128, 512], read their operand at the
  evident coordinates.
-/
import Idealize.ShloMosaic.Lib.Pipeline.Value
import Idealize.ShloMosaic.Lib.ValueIdx
import Idealize.ShloMosaic.Lib.ValueLayout

noncomputable section

namespace Cert.Joiner

open Idealize.ShloMosaic Idealize.ShloMosaic.ValueIdx

variable {α : Type}

/-- The row of the flattened matrix that holds the pair (p, u): rows are numbered in row-major order, p · 128 + u. -/
def row (p : Fin 16) (u : Fin 128) : Fin 2048 :=
  ⟨p.val * 128 + u.val, by have := p.isLt; have := u.isLt; omega⟩

theorem row_val (p : Fin 16) (u : Fin 128) : (row p u).val = p.val * 128 + u.val := rfl

/-- Flattening the two leading axes: entry (p · 128 + u, k) of the matrix is entry (p, u, k) of the array. -/
theorem flatten_apply {n : ℕ} (x : (⟨3, ![16, 128, n]⟩ : Shape).Idx → α)
    (h : (⟨3, ![16, 128, n]⟩ : Shape).ShapeCasts ⟨2, ![2048, n]⟩) (p : Fin 16) (u : Fin 128) (k : Fin n) :
    shapeCast ⟨2, ![2048, n]⟩ x h (ix2 (row p u) k) = x (ix3 p u k) :=
  shapeCast_apply x h _ _ (by
    rw [Shape.rowMajor_val_three, Shape.rowMajor_val_two]
    show (p.val * 128 + u.val) * n + k.val = (p.val * 128 + u.val) * n + k.val
    rfl)

/-- Splitting the rows again: entry (p, u, k) of the array is entry (p · 128 + u, k) of the matrix. -/
theorem unflatten_apply {n : ℕ} (x : (⟨2, ![2048, n]⟩ : Shape).Idx → α)
    (h : (⟨2, ![2048, n]⟩ : Shape).ShapeCasts ⟨3, ![16, 128, n]⟩) (p : Fin 16) (u : Fin 128) (k : Fin n) :
    shapeCast ⟨3, ![16, 128, n]⟩ x h (ix3 p u k) = x (ix2 (row p u) k) :=
  shapeCast_apply x h _ _ (by
    rw [Shape.rowMajor_val_three, Shape.rowMajor_val_two]
    show (p.val * 128 + u.val) * n + k.val = (p.val * 128 + u.val) * n + k.val
    rfl)

/-- A unit middle axis inserted into a matrix: entry (p, z, k) is entry (p, k). -/
theorem insertMiddle_apply {a n : ℕ} (x : (⟨2, ![a, n]⟩ : Shape).Idx → α)
    (h : (⟨2, ![a, n]⟩ : Shape).ShapeCasts ⟨3, ![a, 1, n]⟩) (p : Fin a) (z : Fin 1) (k : Fin n) :
    shapeCast ⟨3, ![a, 1, n]⟩ x h (ix3 p z k) = x (ix2 p k) :=
  shapeCast_apply x h _ _ (by
    have hz : z.val = 0 := by omega
    rw [Shape.rowMajor_val_three, Shape.rowMajor_val_two]
    show p.val * n + k.val = (p.val * 1 + z.val) * n + k.val
    rw [hz, Nat.mul_one, Nat.add_zero])

/-- A [16, 1, 512] array spread over the middle axis: entry (p, u, k) is the operand's entry (p, 0, k). -/
theorem spreadMiddle_apply (x : (⟨3, ![16, 1, 512]⟩ : Shape).Idx → α)
    (h : (⟨3, ![16, 1, 512]⟩ : Shape).Broadcasts ⟨3, ![16, 128, 512]⟩) (p : Fin 16) (u : Fin 128) (k : Fin 512) :
    broadcastTo ⟨3, ![16, 128, 512]⟩ x h (ix3 p u k) = x (ix3 p (0 : Fin 1) k) := by
  refine broadcastTo_apply x h (ix3 p u k) (ix3 p (0 : Fin 1) k) fun ax => ?_
  match ax with
  | ⟨0, _⟩ => show p.val = if (16 : ℕ) = 1 then 0 else p.val; rw [if_neg (by decide)]
  | ⟨1, _⟩ => show 0 = if (1 : ℕ) = 1 then 0 else u.val; rw [if_pos rfl]
  | ⟨2, _⟩ => show k.val = if (512 : ℕ) = 1 then 0 else k.val; rw [if_neg (by decide)]

/-- A [1, 128, 512] array spread over the leading axis: entry (p, u, k) is the operand's entry (0, u, k). -/
theorem spreadLeading_apply (x : (⟨3, ![1, 128, 512]⟩ : Shape).Idx → α)
    (h : (⟨3, ![1, 128, 512]⟩ : Shape).Broadcasts ⟨3, ![16, 128, 512]⟩) (p : Fin 16) (u : Fin 128) (k : Fin 512) :
    broadcastTo ⟨3, ![16, 128, 512]⟩ x h (ix3 p u k) = x (ix3 (0 : Fin 1) u k) := by
  refine broadcastTo_apply x h (ix3 p u k) (ix3 (0 : Fin 1) u k) fun ax => ?_
  match ax with
  | ⟨0, _⟩ => show 0 = if (1 : ℕ) = 1 then 0 else p.val; rw [if_pos rfl]
  | ⟨1, _⟩ => show u.val = if (128 : ℕ) = 1 then 0 else u.val; rw [if_neg (by decide)]
  | ⟨2, _⟩ => show k.val = if (512 : ℕ) = 1 then 0 else k.val; rw [if_neg (by decide)]

end Cert.Joiner

end
-- ==== Proof.Payload.lean ====
/-
  The value the joiner's body stores at one grid point, read at an entry (p, u, v) of its [1, 16, 128, 1024] block:
  the body adds the source block's row p to the target block's row u feature by feature, rectifies, lays the
  16 · 128 pairs out as the rows of a [2048, 512] matrix, multiplies by the [512, 1024] weight block, adds the bias
  row, and lays the rows out as pairs again. Row p · 128 + u of the product is pair (p, u), so the entry is
      Σ_{k < 512} max(x0(0, p, k) + x1(0, u, k), 0) · x2(k, v) + x3(v).
  The narrowing of the rectified values to the matrix unit's input format is the identity on the extended reals.
-/
import proofs.«177864_j37950331027631_1_alg».proof.Proof.Gen.KernelIdeal.Skeleton
import proofs.«177864_j37950331027631_1_alg».proof.Proof.LibPlainDot
import proofs.«177864_j37950331027631_1_alg».proof.Proof.Layout
import Idealize.ShloMosaic.Lib.ValueLayout
import Idealize.ShloMosaic.PureOps.Ideal.Laws

noncomputable section

namespace Cert.Joiner

open Idealize.ShloMosaic Idealize.ShloMosaic.ValueIdx Cert.KernelIdeal Cert.KernelIdeal.Gen

/-- The body's matrix product contracts the left operand's columns with the right operand's rows and has no batch axes. -/
theorem dims_plain : PlainDot.IsPlain dot_S2048x512_S512x1024_S2048x1024_1_0_0_1_n_n :=
  ⟨rfl, rfl, rfl, rfl, rfl, rfl⟩

/-- The stored block at (z, p, u, v). -/
theorem pay_apply (x0 : Vec Ideal S1x16x512 .f32) (x1 : Vec Ideal S1x128x512 .f32) (x2 : Vec Ideal S512x1024 .bf16)
    (x3 : Vec Ideal S1024 .f32) (z : Fin 1) (p : Fin 16) (u : Fin 128) (v : Fin 1024) :
    k0_pay1 (F := Ideal) x0 x1 x2 x3 (ix4 z p u v)
      = (∑ k : Fin 512, max (x0 (ix3 (0 : Fin 1) p k) + x1 (ix3 (0 : Fin 1) u k)) (Ideal.ofBits .f32 0x00000000#32) * x2 (ix2 k v))
        + x3 (ix1 v) := by
  unfold k0_pay1
  refine (shapeCast_abc_1abc_apply _ _ z p u v).trans ?_
  refine (unflatten_apply _ _ p u v).trans ?_
  refine congrArg₂ (· + ·) ?_ ?_
  · refine (PlainDot.matmul_zero_apply dims_plain none _ _ (row p u) v).trans ?_
    refine Finset.sum_congr rfl fun k _ => ?_
    refine congrArg₂ (· * ·) ?_ ?_
    · refine (flatten_apply _ _ p u k).trans ?_
      refine congrArg₂ max (congrArg₂ (· + ·) ?_ ?_) rfl
      · refine (spreadMiddle_apply _ _ p u k).trans ?_
        refine (insertMiddle_apply _ _ p (0 : Fin 1) k).trans ?_
        exact shapeCast_1ab_ab_apply _ _ p k
      · refine (spreadLeading_apply _ _ p u k).trans ?_
        refine (shapeCast_ab_1ab_apply _ _ (0 : Fin 1) u k).trans ?_
        exact shapeCast_1ab_ab_apply _ _ u k
    · exact congrFun (shapeCast_self _ _) _
  · refine (broadcastTo_1b_ab_apply _ _ (row p u) v).trans ?_
    exact shapeCast_a_1a_apply _ _ (0 : Fin 1) v

end Cert.Joiner

end
-- ==== Proof.Spec.lean ====
/-
  What the joiner computes, as one function of its four float arguments over the extended reals:

      out(b, t, u, v) = Σ_{k < 512} max(src(b, t, k) + tgt(b, u, k), 0) · W(v, k)  +  bias(v).

  Every source frame t is paired with every target position u of the same batch entry b; the pair's
  512 features are added, rectified, and mapped to the 1024 outputs by the rows of W, plus the bias.
  The zero the rectifier compares against is kept as the value of the all-zero 32-bit word, the form in
  which both programs spell it.
-/
import Idealize.ShloMosaic.PureOps.Ideal.Laws
import Idealize.ShloMosaic.Lib.ValueIdx

noncomputable section

namespace Cert.Joiner

open Idealize.ShloMosaic Idealize.ShloMosaic.ValueIdx

/-- The rectified sum of one source frame's and one target position's feature k. -/
def act (src : FVec Ideal ⟨3, ![4, 256, 512]⟩ .f32) (tgt : FVec Ideal ⟨3, ![4, 128, 512]⟩ .f32)
    (b : Fin 4) (t : Fin 256) (u : Fin 128) (k : Fin 512) : EReal :=
  max (src (ix3 b t k) + tgt (ix3 b u k)) (Ideal.ofBits .f32 0x00000000#32)

/-- The joiner's result, entry by entry. -/
def joined (src : FVec Ideal ⟨3, ![4, 256, 512]⟩ .f32) (tgt : FVec Ideal ⟨3, ![4, 128, 512]⟩ .f32)
    (W : FVec Ideal ⟨2, ![1024, 512]⟩ .f32) (bias : FVec Ideal ⟨1, ![1024]⟩ .f32) :
    FVec Ideal ⟨4, ![4, 256, 128, 1024]⟩ .f32 :=
  fun i => (∑ k : Fin 512, act src tgt (i 0) (i 1) (i 2) k * W (ix2 (i 3) k)) + bias (ix1 (i 3))

theorem joined_apply (src : FVec Ideal ⟨3, ![4, 256, 512]⟩ .f32) (tgt : FVec Ideal ⟨3, ![4, 128, 512]⟩ .f32)
    (W : FVec Ideal ⟨2, ![1024, 512]⟩ .f32) (bias : FVec Ideal ⟨1, ![1024]⟩ .f32)
    (b : Fin 4) (t : Fin 256) (u : Fin 128) (v : Fin 1024) :
    joined src tgt W bias (ix4 b t u v)
      = (∑ k : Fin 512, act src tgt b t u k * W (ix2 v k)) + bias (ix1 v) := rfl

end Cert.Joiner

end
-- ==== Proof.KernelValue.lean ====
/-
  The joiner kernel's result array, as one function of the arguments.

  The grid has a point for every batch entry b and every tile of 16 source frames. At the point (b, τ) the
  body is given the source rows 16 τ … 16 τ + 15 of batch b, all 128 target rows of batch b, the whole weight
  matrix — transposed and narrowed by the host before the launch, so its entry (k, v) is W(v, k) — and the whole
  bias, and writes the block (b, 16 τ … 16 τ + 15, all u, all v) of the result. That block is the specification
  restricted to it (the stored value read entry by entry, each block read moved to the argument arrays), the 64
  blocks tile the result, and so the result array is the specification.
-/
import proofs.«177864_j37950331027631_1_alg».proof.Proof.Gen.KernelIdeal.Value
import proofs.«177864_j37950331027631_1_alg».proof.Proof.Payload
import proofs.«177864_j37950331027631_1_alg».proof.Proof.Spec
import Idealize.ShloMosaic.Lib.Pipeline.Value
import Idealize.ShloMosaic.Lib.ValueLayout
import Idealize.ShloMosaic.Lib.StableHlo.Run

noncomputable section

namespace Cert.Joiner

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The specification at the kernel program's argument arrays as launched. -/
def result (c : Dev nD) : S4x256x128x1024.Idx → EReal :=
  joined (m ((c : Thread nD τ).loc main_arg0)) (m ((c : Thread nD τ).loc main_arg2))
    (m ((c : Thread nD τ).loc main_arg4)) (m ((c : Thread nD τ).loc main_arg5))

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-! ## The weight block: the host's transpose, narrowed -/

/-- When the region is entered, the weight operand holds W transposed; the narrowing is the identity. -/
theorem weight_entry (c : Dev nD) (k : Fin 512) (v : Fin 1024) :
    V m c main_v1 (ix2 k v) = m ((c : Thread nD τ).loc main_arg4) (ix2 v k) := by
  have e : V m c main_v1
      = ((truncf (F := Ideal) .bf16 · bitsLt_bf16_f32) : (⟨S512x1024, .f32⟩ : BufTy).Contents (Elt Ideal) → (⟨S512x1024, .bf16⟩ : BufTy).Contents (Elt Ideal))
          (((transpose S512x1024 [1, 0] · transposes_S1024x512_S512x1024_1_0) : (⟨S1024x512, .f32⟩ : BufTy).Contents (Elt Ideal) → (⟨S512x1024, .f32⟩ : BufTy).Contents (Elt Ideal))
            (m ((c : Thread nD τ).loc main_arg4))) := by
    dsimp only [Gen.V, Gen.hostOps0]; after_results
  rw [e]
  exact transpose_ix2_apply (m ((c : Thread nD τ).loc main_arg4)) transposes_S1024x512_S512x1024_1_0 k v

/-! ## Where the windows sit at a grid point -/

/-- The printed index maps, decided over the 64 points: the source window follows the result window on the batch
    and frame-tile axes, the target window on the batch axis only, everything else sits at block 0. -/
theorem index_facts : ∀ t : Fin cfg0.N,
    win0_0.index t (0 : Fin 3) = win0_4.index t (0 : Fin 4) ∧ win0_0.index t (1 : Fin 3) = win0_4.index t (1 : Fin 4)
    ∧ win0_0.index t (2 : Fin 3) = 0
    ∧ win0_1.index t (0 : Fin 3) = win0_4.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (2 : Fin 4) = 0 ∧ win0_4.index t (3 : Fin 4) = 0 :=
  (by decide +kernel : ∀ t : Fin grid0.N, _)

/-- Every (batch entry, frame tile) is some point's result block. -/
theorem index_onto : ∀ (q0 : Fin 4) (q1 : Fin 16), ∃ t : Fin cfg0.N, win0_4.index t = ![q0.val, q1.val, 0, 0] :=
  (by decide +kernel : ∀ (q0 : Fin 4) (q1 : Fin 16), ∃ t : Fin grid0.N, win0_4.index t = ![q0.val, q1.val, 0, 0])

/-! ## The input blocks read off the argument arrays -/

/-- Row p of the source block is frame 16 τ + p of batch b. -/
theorem source_block (c : Dev nD) (t : Fin cfg0.N) (p : Fin 16) (k : Fin 512) (b : Fin 4) (r : Fin 256)
    (hb : b.val = win0_4.index t (0 : Fin 4)) (hr : r.val = win0_4.index t (1 : Fin 4) * 16 + p.val) :
    iblk m c 0 t (ix3 (0 : Fin 1) p k) = m ((c : Thread nD τ).loc main_arg0) (ix3 b r k) := by
  obtain ⟨e0, e1, e2, -⟩ := index_facts t
  show V m c main_arg0 (((cfg0.win 0).blk t).view.emb (ix3 (0 : Fin 1) p k)) = _
  rw [V_main_arg0]
  refine congrArg _ (funext fun a => Fin.ext ?_)
  match a with
  | ⟨0, _⟩ => show win0_0.index t (0 : Fin 3) * 1 + 1 * 0 = b.val; omega
  | ⟨1, _⟩ => show win0_0.index t (1 : Fin 3) * 16 + 1 * p.val = r.val; omega
  | ⟨2, _⟩ => show win0_0.index t (2 : Fin 3) * 512 + 1 * k.val = k.val; omega

/-- Row u of the target block is target position u of batch b. -/
theorem target_block (c : Dev nD) (t : Fin cfg0.N) (u : Fin 128) (k : Fin 512) (b : Fin 4)
    (hb : b.val = win0_4.index t (0 : Fin 4)) :
    iblk m c 1 t (ix3 (0 : Fin 1) u k) = m ((c : Thread nD τ).loc main_arg2) (ix3 b u k) := by
  obtain ⟨-, -, -, e3, e4, e5, -⟩ := index_facts t
  show V m c main_arg2 (((cfg0.win 1).blk t).view.emb (ix3 (0 : Fin 1) u k)) = _
  rw [V_main_arg2]
  refine congrArg _ (funext fun a => Fin.ext ?_)
  match a with
  | ⟨0, _⟩ => show win0_1.index t (0 : Fin 3) * 1 + 1 * 0 = b.val; omega
  | ⟨1, _⟩ => show win0_1.index t (1 : Fin 3) * 128 + 1 * u.val = u.val; omega
  | ⟨2, _⟩ => show win0_1.index t (2 : Fin 3) * 512 + 1 * k.val = k.val; omega

/-- The weight block is the whole transposed matrix: its entry (k, v) is W(v, k). -/
theorem weight_block (c : Dev nD) (t : Fin cfg0.N) (k : Fin 512) (v : Fin 1024) :
    iblk m c 2 t (ix2 k v) = m ((c : Thread nD τ).loc main_arg4) (ix2 v k) := by
  obtain ⟨-, -, -, -, -, -, e6, e7, -⟩ := index_facts t
  show V m c main_v1 (((cfg0.win 2).blk t).view.emb (ix2 k v)) = _
  rw [← weight_entry m c k v]
  refine congrArg _ (funext fun a => Fin.ext ?_)
  match a with
  | ⟨0, _⟩ => show win0_2.index t (0 : Fin 2) * 512 + 1 * k.val = k.val; omega
  | ⟨1, _⟩ => show win0_2.index t (1 : Fin 2) * 1024 + 1 * v.val = v.val; omega

/-- The bias block is the whole bias. -/
theorem bias_block (c : Dev nD) (t : Fin cfg0.N) (v : Fin 1024) :
    iblk m c 3 t (ix1 v) = m ((c : Thread nD τ).loc main_arg5) (ix1 v) := by
  obtain ⟨-, -, -, -, -, -, -, -, e8, -⟩ := index_facts t
  show V m c main_arg5 (((cfg0.win 3).blk t).view.emb (ix1 v)) = _
  rw [V_main_arg5]
  refine congrArg _ (funext fun a => Fin.ext ?_)
  match a with
  | ⟨0, _⟩ => show win0_3.index t (0 : Fin 1) * 1024 + 1 * v.val = v.val; omega

/-! ## What a point writes -/

/-- The value stored at point t, at (z, p, u, v), is the specification at the entry of the result array that the
    result window's block puts there: (b, 16 τ + p, u, v). -/
theorem stored_eq (c : Dev nD) (t : Fin cfg0.N) (z : Fin 1) (p : Fin 16) (u : Fin 128) (v : Fin 1024)
    (b : Fin 4) (r : Fin 256) (u' : Fin 128) (v' : Fin 1024)
    (hb : b.val = win0_4.index t (0 : Fin 4) * 1 + 1 * z.val) (hr : r.val = win0_4.index t (1 : Fin 4) * 16 + 1 * p.val)
    (hu : u'.val = win0_4.index t (2 : Fin 4) * 128 + 1 * u.val) (hv : v'.val = win0_4.index t (3 : Fin 4) * 1024 + 1 * v.val) :
    k0_pay1 (F := Ideal) (iblk m c 0 t) (iblk m c 1 t) (iblk m c 2 t) (iblk m c 3 t) (ix4 z p u v)
      = result m c (ix4 b r u' v') := by
  obtain ⟨-, -, -, -, -, -, -, -, -, e9, e10⟩ := index_facts t
  have hz : z.val = 0 := by omega
  obtain rfl : u' = u := Fin.ext (by omega)
  obtain rfl : v' = v := Fin.ext (by omega)
  refine (pay_apply (iblk m c 0 t) (iblk m c 1 t) (iblk m c 2 t) (iblk m c 3 t) z p u' v').trans ?_
  unfold result
  rw [joined_apply]
  refine congrArg₂ (· + ·) (Finset.sum_congr rfl fun k _ => congrArg₂ (· * ·) ?_ ?_) ?_
  · unfold act
    rw [source_block m c t p k b r (by omega) (by omega), target_block m c t u' k b (by omega)]
  · exact weight_block m c t k v'
  · exact bias_block m c t v'

/-- WHAT POINT t WRITES BACK is its block of the specification. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero zeros4]
  simp only [View.ld_unit_zero (S := S1x16x512) zeros3, View.ld_unit_zero (S := S1x128x512) zeros3,
    View.ld_unit_zero (S := S512x1024) zeros2, View.ld_unit_zero (S := S1024) zeros1]
  funext j
  obtain ⟨z, p, u, v, rfl⟩ : ∃ (z : Fin 1) (p : Fin 16) (u : Fin 128) (v : Fin 1024), j = ix4 z p u v :=
    ⟨j 0, j 1, j 2, j 3, eq_ix4 j⟩
  show k0_pay1 (F := Ideal) (iblk m c 0 t) (iblk m c 1 t) (iblk m c 2 t) (iblk m c 3 t) (ix4 z p u v)
    = result m c (((cfg0.win 4).blk t).view.emb (ix4 z p u v))
  rw [eq_ix4 (((cfg0.win 4).blk t).view.emb (ix4 z p u v))]
  exact stored_eq m c t z p u v _ _ _ _ rfl rfl rfl rfl

/-! ## The blocks tile the result -/

/-- An entry of the result array is in point t's block iff each coordinate is in the block's range on its axis. -/
theorem mem_block (t : Fin cfg0.N) (i : S4x256x128x1024.Idx) :
    i ∈ ((cfg0.win 4).blk t).view.set ↔ ∀ a : Fin 4, win0_4.index t a * S1x16x128x1024.size a ≤ (i a).val
      ∧ (i a).val < win0_4.index t a * S1x16x128x1024.size a + S1x16x128x1024.size a := by
  show i ∈ ((View.whole main_v2).slice (win0_4.rect t)).set ↔ _
  rw [View.set_slice_whole, Rect.mem_set_unit]
  exact Iff.rfl

/-- Entry (b, r, u, v) is in the block of the point for batch b and frame tile r / 16. -/
theorem covered (i : S4x256x128x1024.Idx) :
    ∃ t : Fin cfg0.N, (cfg0.win 4).flush t = true ∧ i ∈ ((cfg0.win 4).blk t).view.set := by
  have h0 : (i 0).val < 4 := (i 0).isLt
  have h1 : (i 1).val < 256 := (i 1).isLt
  have h2 : (i 2).val < 128 := (i 2).isLt
  have h3 : (i 3).val < 1024 := (i 3).isLt
  obtain ⟨t, ht⟩ := index_onto ⟨(i 0).val, h0⟩ ⟨(i 1).val / 16, by omega⟩
  have q0 : win0_4.index t (0 : Fin 4) = (i 0).val := congrFun ht 0
  have q1 : win0_4.index t (1 : Fin 4) = (i 1).val / 16 := congrFun ht 1
  have q2 : win0_4.index t (2 : Fin 4) = 0 := congrFun ht 2
  have q3 : win0_4.index t (3 : Fin 4) = 0 := congrFun ht 3
  refine ⟨t, flush0_4 t, ?_⟩
  rw [mem_block]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 128 ≤ (i 2).val ∧ (i 2).val < win0_4.index t (2 : Fin 4) * 128 + 128; omega
  | ⟨3, _⟩ => show win0_4.index t (3 : Fin 4) * 1024 ≤ (i 3).val ∧ (i 3).val < win0_4.index t (3 : Fin 4) * 1024 + 1024; omega

/-- THE RESULT ARRAY after the run is the specification. -/
theorem final (c : Dev nD) : (dats m 0 c).arrAt 4 cfg0.N = result m c :=
  (dats m 0 c).arrAt_eq_of_cover 4 (result m c) (fun t _ => flushed_eq m c t) covered

/-! ## The run -/

/-- Every weakly fair execution of the kernel program terminates with the result array at the specification of the
    arguments as launched, and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.Joiner

end
-- ==== Proof.RefValue.lean ====
/-
  The reference, read entry by entry: it spreads the source frames over the target positions and the target
  positions over the source frames, adds, rectifies against zero, contracts the 512 features with the rows of W
  in one product, and adds the bias spread over every (b, t, u). At entry (b, t, u, v) that is
      Σ_{k < 512} max(src(b, t, k) + tgt(b, u, k), 0) · W(v, k) + bias(v),
  the specification.
-/
import proofs.«177864_j37950331027631_1_alg».proof.Proof.Gen.ReferenceIdeal.Read
import proofs.«177864_j37950331027631_1_alg».proof.Proof.Spec

noncomputable section

namespace Cert.Joiner

open Idealize.ShloMosaic Idealize.ShloMosaic.ValueIdx Cert.ReferenceIdeal Cert.ReferenceIdeal.Read

/-- The reference's result array is the specification of its four float arguments. -/
theorem reference_eq (x0 : (⟨S4x256x512, .f32⟩ : BufTy).Contents (Elt Ideal)) (x2 : (⟨S4x128x512, .f32⟩ : BufTy).Contents (Elt Ideal))
    (x4 : (⟨S1024x512, .f32⟩ : BufTy).Contents (Elt Ideal)) (x5 : (⟨S1024, .f32⟩ : BufTy).Contents (Elt Ideal)) :
    val_main_v9 (F := Ideal) x0 x2 x4 x5 = joined x0 x2 x4 x5 := by
  funext i
  obtain ⟨b, t, u, v, rfl⟩ : ∃ (b : Fin 4) (t : Fin 256) (u : Fin 128) (v : Fin 1024), i = ix4 b t u v :=
    ⟨i 0, i 1, i 2, i 3, eq_ix4 i⟩
  rw [joined_apply, val_main_v9_apply, val_main_v6_apply, val_main_v8_apply, val_main_v7_apply]
  refine congrArg₂ (· + ·) (Finset.sum_congr rfl fun k _ => congrArg₂ (· * ·) ?_ ?_) ?_
  · -- the rectified sum of source frame (b, t) and target position (b, u) at feature k
    rw [val_main_v5_apply, val_main_v4_apply, val_main_v2_apply, val_main_v0_apply, val_main_v3_apply, val_main_v1_apply,
      val_main_call0_v0_apply, val_main_call0_cst_apply]
    have e0 : idx_main_v0 (idx_main_v2 (lidx_main_v6 (ix4 b t u v) k)) = ix3 b t k :=
      funext fun a => Fin.ext (by match a with | ⟨0, _⟩ => rfl | ⟨1, _⟩ => rfl | ⟨2, _⟩ => rfl)
    have e1 : idx_main_v1 (idx_main_v3 (lidx_main_v6 (ix4 b t u v) k)) = ix3 b u k :=
      funext fun a => Fin.ext (by match a with | ⟨0, _⟩ => rfl | ⟨1, _⟩ => rfl | ⟨2, _⟩ => rfl)
    rw [e0, e1]
    rfl
  · -- row v of W at feature k
    exact congrArg x4 (funext fun a => Fin.ext (by match a with | ⟨0, _⟩ => rfl | ⟨1, _⟩ => rfl))
  · -- the bias at output v
    exact congrArg x5 (funext fun a => Fin.ext (by match a with | ⟨0, _⟩ => rfl))

end Cert.Joiner

end
-- ==== Proof.lean ====
/-
  The joiner: every source frame t of a batch entry is combined with every target position u of the same entry,

      out(b, t, u, v) = Σ_{k < 512} max(src(b, t, k) + tgt(b, u, k), 0) · W(v, k) + bias(v),

  and the two length vectors are returned as they came.

  The kernel computes it tile by tile: a grid point per batch entry and per 16 source frames forms the 16 · 128
  rectified pair sums, multiplies the [2048, 512] matrix of them by the transposed weights in one product and adds
  the bias. The reference forms all pair sums at once and contracts the feature axis with W in one product. On the
  extended reals the narrowing of the matrix unit's operands is the identity, the kernel's product into a zero
  accumulator and the reference's product are the same sum over the 512 features, and the only difference left is
  where the rows sit: row p · 128 + u of a tile's product is the pair (16 τ + p, u). No algebraic law beyond that
  re-indexing is used, so the finiteness of the inputs is never needed.

  Proof/Spec.lean states the function; Proof/Payload.lean reads the value one grid point stores; Proof/KernelValue.lean
  moves the block reads to the argument arrays, shows the 64 blocks tile the result, and restates the kernel's run;
  Proof/RefValue.lean reads the reference's result. The three frames are the generated ones.
-/
import proofs.«177864_j37950331027631_1_alg».proof.Defs
import proofs.«177864_j37950331027631_1_alg».proof.Proof.Gen.Kernel
import proofs.«177864_j37950331027631_1_alg».proof.Proof.Gen.Kernel.Skeleton
import proofs.«177864_j37950331027631_1_alg».proof.Proof.Gen.Kernel.Launch
import proofs.«177864_j37950331027631_1_alg».proof.Proof.Gen.Kernel.Points
import proofs.«177864_j37950331027631_1_alg».proof.Proof.Gen.Kernel.Frame
import proofs.«177864_j37950331027631_1_alg».proof.Proof.Gen.KernelIdeal
import proofs.«177864_j37950331027631_1_alg».proof.Proof.Gen.KernelIdeal.Skeleton
import proofs.«177864_j37950331027631_1_alg».proof.Proof.Gen.KernelIdeal.Launch
import proofs.«177864_j37950331027631_1_alg».proof.Proof.Gen.KernelIdeal.Points
import proofs.«177864_j37950331027631_1_alg».proof.Proof.Gen.KernelIdeal.Frame
import proofs.«177864_j37950331027631_1_alg».proof.Proof.Gen.ReferenceIdeal
import proofs.«177864_j37950331027631_1_alg».proof.Proof.Gen.Pre_finite_inputs
import proofs.«177864_j37950331027631_1_alg».proof.Proof.Gen.KernelIdeal.Value
import proofs.«177864_j37950331027631_1_alg».proof.Proof.Gen.ReferenceIdeal.Run
import proofs.«177864_j37950331027631_1_alg».proof.Proof.Gen.ReferenceIdeal.Read
import proofs.«177864_j37950331027631_1_alg».proof.Proof.KernelValue
import proofs.«177864_j37950331027631_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: it runs to its operations' composed term, and in particular leaves its arguments
    as they were. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the six arguments, both programs end with the specification of the float
    arguments in their result array and with the two length vectors as launched. -/
theorem algebraic : Cert.algebraic_KernelIdeal_ReferenceIdeal := by
  intro m ρ m' ρ' _ hagree
  refine ⟨fun c => Cert.Joiner.result m c,
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg3), ?_, ?_⟩
  · refine (θ_run Cert.KernelIdeal.defs _ _).mono (fun r h c => ?_) (Cert.Joiner.run m ρ)
    obtain ⟨hv, h0, h1, h2, h3, h4, h5⟩ := h c
    exact ⟨hv, h1, h3, h0, h1, h2, h3, h4, h5⟩
  · refine (θ_run Cert.ReferenceIdeal.defs _ _).mono (fun r h c => ?_) (Cert.ReferenceIdeal.Value.run (F := Ideal) m' ρ')
    obtain ⟨hv, h1, h3, rest⟩ := h c
    obtain ⟨g0, g1, g2, g3, g4, g5⟩ := hagree c
    refine ⟨?_, h1.trans g1, h3.trans g3, rest⟩
    rw [hv, Cert.ReferenceIdeal.Read.val_main_v9_eq, Cert.Joiner.reference_eq, g0, g2, g4, g5]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
